-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x2 : Shape := ⟨2, ![1048576, 2]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S128 .f32) (main_arg5 : FVec F S128x2 .f32) (main_arg6 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg5
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S1048576x2 .f32) (main_arg1 : FVec F S1x128 .f32) (main_arg2 : FVec F S128 .f32) (main_arg3 : FVec F S128x128 .f32) (main_arg4 : FVec F S128 .f32) (main_arg5 : FVec F S128x2 .f32) (main_arg6 : FVec F S2 .f32) : IVec S_ 1 :=
  let main_v0 : FVec F S1048576x2 .f32 := Host.absf main_arg0
  let main_cst : FVec F S_ .f32 := constant S_ .f32 0x7F800000#32
  let main_v1 : FVec F S1048576x2 .f32 := broadcastInDim S1048576x2 ![] bcast_S_S1048576x2 main_cst
  let main_v2 : IVec S1048576x2 1 := cmpf .olt main_v0 main_v1
  let main_c : IVec S_ 1 := constantI S_ 1 1#1
  let main_v3 : IVec S_ 1 := (fun x v => Host.reduce IntOp.andi x v reducesTo_S1048576x2_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S1048576x2 : Shape := ⟨2, ![1048576, 2]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S4096x2 : Shape := ⟨2, ![4096, 2]⟩
abbrev S4096x1 : Shape := ⟨2, ![4096, 1]⟩
abbrev S4096x128 : Shape := ⟨2, ![4096, 128]⟩
abbrev S1x2 : Shape := ⟨2, ![1, 2]⟩

abbrev nBuf : Space → Nat
  | .hbm => 8
  | .vmem => 10
  | .smem => 0
  | _ => 0

abbrev bufTy : (tb : Table) → Fin (tcTables nBuf tb) → BufTy
  | .hbm, ⟨0, _⟩ => ⟨S1048576x2, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x2, .f32⟩
  | .hbm, ⟨6, _⟩ => ⟨S2, .f32⟩
  | .hbm, ⟨7, _⟩ => ⟨S1048576x2, .f32⟩
  | .local _ .vmem, ⟨0, _⟩ => ⟨S4096x2, .f32⟩
  | .local _ .vmem, ⟨1, _⟩ => ⟨S4096x2, .f32⟩
  | .local _ .vmem, ⟨2, _⟩ => ⟨S1x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x2, .f32⟩
  | .local _ .vmem, ⟨7, _⟩ => ⟨S2, .f32⟩
  | .local _ .vmem, ⟨8, _⟩ => ⟨S4096x2, .f32⟩
  | .local _ .vmem, ⟨9, _⟩ => ⟨S4096x2, .f32⟩
  | _, _ => ⟨S1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S4096x2_S4096x2_0_0 : ∀ a, (![0, 0] : Fin 2 → Nat) a + S4096x2.size a ≤ S4096x2.size a
  h_S4096x2 : 0 < S4096x2.numel
  slices_S4096x2_o0_0_S4096x1 : S4096x2.Slices ![0, 0] S4096x1
  slices_S4096x2_o0_1_S4096x1 : S4096x2.Slices ![0, 1] S4096x1
  inb_S1x128_S1x128_0_0 : ∀ a, (![0, 0] : Fin 2 → Nat) a + S1x128.size a ≤ S1x128.size a
  h_S1x128 : 0 < S1x128.numel
  inb_S128_S128_0 : ∀ a, (![0] : Fin 1 → Nat) a + S128.size a ≤ S128.size a
  h_S128 : 0 < S128.numel
  broadcasts_S4096x1_S4096x128 : S4096x1.Broadcasts S4096x128
  broadcasts_S1x128_S4096x128 : S1x128.Broadcasts S4096x128
  shapeCasts_S128_S1x128 : S128.ShapeCasts S1x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S4096x2 : S1x2.Broadcasts S4096x2
  concatenates_S4096x1_S4096x1_S4096x2_d1 : Shape.Concatenates [S4096x1, S4096x1] S4096x2 1
  dot_S4096x128_S128x128_S4096x128_1_0_0_1_n_n_wf : DotDims.WF S4096x128 S128x128 S4096x128 [1] [0] [0] [1] [] []
  dot_S4096x128_S128x2_S4096x2_1_0_0_1_n_n_wf : DotDims.WF S4096x128 S128x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S1048576x2.size a
  hwx0_0 : ∀ i : grid0.Coords, EltTy.bits .f32 = 32 ∨ (Rect.block (s := S1048576x2) S4096x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x2.size a ≤ S128x2.size a
  hwx0_5 : ∀ i : grid0.Coords, EltTy.bits .f32 = 32 ∨ (Rect.block (s := S128x2) S128x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x2.size a ≤ S1048576x2.size a
  hwx0_7 : ∀ i : grid0.Coords, EltTy.bits .f32 = 32 ∨ (Rect.block (s := S1048576x2) S4096x2.size (cc0_transform_7 i) (hinb0_7 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

abbrev win0_0 : Pipeline.Window sig grid0 :=
  Pipeline.Window.ofSpec (Memref.whole main_arg0) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4096x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x2 : Shape := ⟨2, ![1048576, 2]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1048576x1 : Shape := ⟨2, ![1048576, 1]⟩
abbrev S1048576x128 : Shape := ⟨2, ![1048576, 128]⟩
abbrev S_ : Shape := ⟨0, ![]⟩
abbrev S1x2 : Shape := ⟨2, ![1, 2]⟩

abbrev nBuf : Space → Nat
  | .hbm => 34
  | .vmem => 0
  | .smem => 0
  | _ => 0

abbrev bufTy : (tb : Table) → Fin (tcTables nBuf tb) → BufTy
  | .hbm, ⟨0, _⟩ => ⟨S1048576x2, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x2, .f32⟩
  | .hbm, ⟨6, _⟩ => ⟨S2, .f32⟩
  | .hbm, ⟨7, _⟩ => ⟨S1048576x1, .f32⟩
  | .hbm, ⟨8, _⟩ => ⟨S1048576x1, .f32⟩
  | .hbm, ⟨9, _⟩ => ⟨S1048576x128, .f32⟩
  | .hbm, ⟨10, _⟩ => ⟨S1x128, .f32⟩
  | .hbm, ⟨11, _⟩ => ⟨S1048576x128, .f32⟩
  | .hbm, ⟨12, _⟩ => ⟨S1048576x128, .f32⟩
  | .hbm, ⟨13, _⟩ => ⟨S_, .f32⟩
  | .hbm, ⟨14, _⟩ => ⟨S1048576x128, .f32⟩
  | .hbm, ⟨15, _⟩ => ⟨S1048576x128, .f32⟩
  | .hbm, ⟨16, _⟩ => ⟨S1048576x128, .f32⟩
  | .hbm, ⟨17, _⟩ => ⟨S1x128, .f32⟩
  | .hbm, ⟨18, _⟩ => ⟨S1048576x128, .f32⟩
  | .hbm, ⟨19, _⟩ => ⟨S1048576x128, .f32⟩
  | .hbm, ⟨20, _⟩ => ⟨S_, .f32⟩
  | .hbm, ⟨21, _⟩ => ⟨S1048576x128, .f32⟩
  | .hbm, ⟨22, _⟩ => ⟨S1048576x128, .f32⟩
  | .hbm, ⟨23, _⟩ => ⟨S1048576x2, .f32⟩
  | .hbm, ⟨24, _⟩ => ⟨S1x2, .f32⟩
  | .hbm, ⟨25, _⟩ => ⟨S1048576x2, .f32⟩
  | .hbm, ⟨26, _⟩ => ⟨S1048576x2, .f32⟩
  | .hbm, ⟨27, _⟩ => ⟨S1048576x1, .f32⟩
  | .hbm, ⟨28, _⟩ => ⟨S1048576x1, .f32⟩
  | .hbm, ⟨29, _⟩ => ⟨S1048576x1, .f32⟩
  | .hbm, ⟨30, _⟩ => ⟨S1048576x1, .f32⟩
  | .hbm, ⟨31, _⟩ => ⟨S1048576x1, .f32⟩
  | .hbm, ⟨32, _⟩ => ⟨S1048576x1, .f32⟩
  | .hbm, ⟨33, _⟩ => ⟨S1048576x2, .f32⟩
  | _, _ => ⟨S1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  slices_S1048576x2_S1048576x1_0_0 : S1048576x2.Slices ![0, 0] S1048576x1
  slices_S1048576x2_S1048576x1_0_1 : S1048576x2.Slices ![0, 1] S1048576x1
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  concatenates_S1048576x1_S1048576x1_S1048576x2_d1 : Shape.Concatenates [S1048576x1, S1048576x1] S1048576x2 1
  dot_S1048576x1_S1x128_S1048576x128_1_0_0_1_n_n_wf : DotDims.WF S1048576x1 S1x128 S1048576x128 [1] [0] [0] [1] [] []
  dot_S1048576x128_S128x128_S1048576x128_1_0_0_1_n_n_wf : DotDims.WF S1048576x128 S128x128 S1048576x128 [1] [0] [0] [1] [] []
  dot_S1048576x128_S128x2_S1048576x2_1_0_0_1_n_n_wf : DotDims.WF S1048576x128 S128x2 S1048576x2 [1] [0] [0] [1] [] []

variable [Facts₀]

def dot_S1048576x1_S1x128_S1048576x128_1_0_0_1_n_n : DotDims S1048576x1 S1x128 S1048576x128 where
  lhsContracting := [1]
  rhsContracting := [0]
  lhsNonContracting := [0]
  rhsNonContracting := [1]
  lhsBatch := []
  rhsBatch := []
  wf := dot_S1048576x1_S1x128_S1048576x128_1_0_0_1_n_n_wf
def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def dot_S1048576x128_S128x2_S1048576x2_1_0_0_1_n_n : DotDims S1048576x128 S128x2 S1048576x2 where
  lhsContracting := [1]
  rhsContracting := [0]
  lhsNonContracting := [0]
  rhsNonContracting := [1]
  lhsBatch := []
  rhsBatch := []
  wf := dot_S1048576x128_S128x2_S1048576x2_1_0_0_1_n_n_wf

class Facts : Prop extends Facts₀ where

variable [Facts]
-- ==== Proof.CouplingSpec.lean ====
/-
  The affine coupling layer as ONE function of the argument arrays, index by index, on the extended reals.

  A row of the input is a pair (z₀, z₁). A three-layer perceptron reads z₀ alone:
    h¹ₕ = max (z₀ · W¹₀ₕ + b¹ₕ) 0,   h²_q = max (Σₖ h¹ₖ · W²ₖq + b²_q) 0,   stⱼ = Σₖ h²ₖ · W³ₖⱼ + b³ⱼ   (j = 0, 1),
  and the row of the result is (z₀, z₁ · exp (tanh st₀) + st₁): the first coordinate passes through, the second is
  scaled and shifted by what the perceptron makes of the first. Every row is treated alone, so the layer of a block
  of rows is the block of the layer: that is all the tiling of the rows needs.

  The zero the two rectifiers compare against is kept as the printed word's value; nothing here evaluates it.
-/
import Idealize.ShloMosaic.PureOps.Ideal
import Idealize.ShloMosaic.Lib.ValueIdx

noncomputable section

namespace Cert.Coupling

open Idealize.ShloMosaic Idealize.ShloMosaic.ValueIdx

/-- The value of the float word `0x00000000`, the rectifiers' floor. -/
abbrev floor0 : EReal := Ideal.ofBits .f32 0x00000000#32

section Row

variable (W1 : (⟨2, ![1, 128]⟩ : Shape).Idx → EReal) (b1 : (⟨1, ![128]⟩ : Shape).Idx → EReal)
  (W2 : (⟨2, ![128, 128]⟩ : Shape).Idx → EReal) (b2 : (⟨1, ![128]⟩ : Shape).Idx → EReal)
  (W3 : (⟨2, ![128, 2]⟩ : Shape).Idx → EReal) (b3 : (⟨1, ![2]⟩ : Shape).Idx → EReal)

/-- The first hidden layer at a row whose passing coordinate is `z`: the contraction has one term. -/
def hidden1 (z : EReal) (h : Fin 128) : EReal :=
  max (z * W1 (ix2 (0 : Fin 1) h) + b1 (ix1 h)) floor0

/-- The second hidden layer: a 128-term contraction of the first against `W2`, the bias, the rectifier. -/
def hidden2 (z : EReal) (q : Fin 128) : EReal :=
  max ((∑ k : Fin 128, hidden1 W1 b1 z k * W2 (ix2 k q)) + b2 (ix1 q)) floor0

/-- The output layer: coordinate 0 is the log-scale before `tanh`, coordinate 1 the shift. -/
def scaleShift (z : EReal) (j : Fin 2) : EReal :=
  (∑ k : Fin 128, hidden2 W1 b1 W2 b2 z k * W3 (ix2 k j)) + b3 (ix1 j)

/-- The transformed coordinate of a row (z₀, z₁). -/
def coupled (z0 z1 : EReal) : EReal :=
  z1 * Ideal.exp (Ideal.tanh (scaleShift W1 b1 W2 b2 W3 b3 z0 0)) + scaleShift W1 b1 W2 b2 W3 b3 z0 1

/-- The result's row from the input's row (z₀, z₁): column 0 keeps z₀, column 1 is the coupled coordinate. -/
def rowOut (z0 z1 : EReal) (j : Fin 2) : EReal :=
  if j.val = 0 then z0 else coupled W1 b1 W2 b2 W3 b3 z0 z1

theorem rowOut_zero (z0 z1 : EReal) : rowOut W1 b1 W2 b2 W3 b3 z0 z1 (0 : Fin 2) = z0 := if_pos rfl

theorem rowOut_one (z0 z1 : EReal) : rowOut W1 b1 W2 b2 W3 b3 z0 z1 (1 : Fin 2) = coupled W1 b1 W2 b2 W3 b3 z0 z1 :=
  if_neg (by decide)

end Row

/-- The layer over the whole [1048576, 2] array: row by row. -/
def layer (x : (⟨2, ![1048576, 2]⟩ : Shape).Idx → EReal)
    (W1 : (⟨2, ![1, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 2]⟩ : Shape).Idx → EReal) (b3 : (⟨1, ![2]⟩ : Shape).Idx → EReal) :
    (⟨2, ![1048576, 2]⟩ : Shape).Idx → EReal :=
  fun i => rowOut W1 b1 W2 b2 W3 b3 (x (ix2 (i 0) (0 : Fin 2))) (x (ix2 (i 0) (1 : Fin 2))) (i 1)

theorem layer_ix2 (x : (⟨2, ![1048576, 2]⟩ : Shape).Idx → EReal)
    (W1 : (⟨2, ![1, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 2]⟩ : Shape).Idx → EReal) (b3 : (⟨1, ![2]⟩ : Shape).Idx → EReal)
    (p : Fin 1048576) (j : Fin 2) :
    layer x W1 b1 W2 b2 W3 b3 (ix2 p j)
      = rowOut W1 b1 W2 b2 W3 b3 (x (ix2 p (0 : Fin 2))) (x (ix2 p (1 : Fin 2))) j := rfl

end Cert.Coupling

end
-- ==== Proof.RefIsLayer.lean ====
/-
  The reference's result is the coupling layer, index by index.

  The reference is a chain of whole-array operations; read at an index (p, ·) each stage is the row function's
  piece at the row's passing coordinate x[p, 0]:
    relu (x[:, 0:1] @ W1 + b1)      at (p, h)  is  hidden1 at h    (the contraction has the one term k = 0),
    relu (that @ W2 + b2)           at (p, q)  is  hidden2 at q    (a 128-term contraction, term by term),
    that @ W3 + b3                  at (p, j)  is  scaleShift at j,
  and the concatenation along axis 1 reads its first piece at column 0 and its second at column 1.
  No law of arithmetic is used: the two sides are the same expression.
-/
import proofs.«126734_j33363305955650_1_alg».proof.Proof.Gen.ReferenceIdeal.Read
import proofs.«126734_j33363305955650_1_alg».proof.Proof.CouplingSpec

noncomputable section

namespace Cert.Coupling.Ref

open Cert.ReferenceIdeal Cert.ReferenceIdeal.Gen Cert.ReferenceIdeal.Read Idealize.ShloMosaic Idealize.ShloMosaic.ValueIdx

variable (x0 : (⟨S1048576x2, .f32⟩ : BufTy).Contents (Elt Ideal)) (x1 : (⟨S1x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x2, .f32⟩ : BufTy).Contents (Elt Ideal))
  (x6 : (⟨S2, .f32⟩ : BufTy).Contents (Elt Ideal))

/-- The first rectified layer at (p, h): the one-term contraction is the product x[p, 0] · W1[0, h]. -/
theorem hidden1_eq (p : Fin 1048576) (h : Fin 128) :
    val_main_v6 (F := Ideal) x0 x1 x2 (ix2 p h) = hidden1 x1 x2 (x0 (ix2 p (0 : Fin 2))) h := by
  have e0 : idx_main_v0 (lidx_main_v2 (ix2 p h) (0 : Fin 1)) = ix2 p (0 : Fin 2) :=
    funext fun a => Fin.ext (by match a with | ⟨0, _⟩ => rfl | ⟨1, _⟩ => rfl)
  have e1 : ridx_main_v2 (ix2 p h) (0 : Fin 1) = ix2 (0 : Fin 1) h :=
    funext fun a => Fin.ext (by match a with | ⟨0, _⟩ => rfl | ⟨1, _⟩ => rfl)
  have e2 : idx_main_v3 (idx_main_v4 (ix2 p h)) = ix1 h :=
    funext fun a => Fin.ext (by match a with | ⟨0, _⟩ => rfl)
  rw [val_main_v6_apply, val_main_v5_apply, val_main_v2_apply, val_main_v4_apply, val_main_v3_apply,
    val_main_call0_v0_apply, val_main_call0_cst_apply, Fin.sum_univ_one, val_main_v0_apply, e0, e1, e2]
  rfl

/-- The second rectified layer at (p, q): the contraction's k-th term is hidden1 at k times W2[k, q]. -/
theorem hidden2_eq (p : Fin 1048576) (q : Fin 128) :
    val_main_v11 (F := Ideal) x0 x1 x2 x3 x4 (ix2 p q) = hidden2 x1 x2 x3 x4 (x0 (ix2 p (0 : Fin 2))) q := by
  have el : ∀ k : Fin 128, lidx_main_v7 (ix2 p q) k = ix2 p k := fun k =>
    funext fun a => Fin.ext (by match a with | ⟨0, _⟩ => rfl | ⟨1, _⟩ => rfl)
  have er : ∀ k : Fin 128, ridx_main_v7 (ix2 p q) k = ix2 k q := fun k =>
    funext fun a => Fin.ext (by match a with | ⟨0, _⟩ => rfl | ⟨1, _⟩ => rfl)
  have eb : idx_main_v8 (idx_main_v9 (ix2 p q)) = ix1 q :=
    funext fun a => Fin.ext (by match a with | ⟨0, _⟩ => rfl)
  rw [val_main_v11_apply, val_main_v10_apply, val_main_v7_apply, val_main_v9_apply, val_main_v8_apply,
    val_main_call1_v0_apply, val_main_call1_cst_apply, eb]
  simp only [el, er, hidden1_eq]
  rfl

/-- The output layer at (p, j). -/
theorem scaleShift_eq (p : Fin 1048576) (j : Fin 2) :
    val_main_v15 (F := Ideal) x0 x1 x2 x3 x4 x5 x6 (ix2 p j)
      = scaleShift x1 x2 x3 x4 x5 x6 (x0 (ix2 p (0 : Fin 2))) j := by
  have el : ∀ k : Fin 128, lidx_main_v12 (ix2 p j) k = ix2 p k := fun k =>
    funext fun a => Fin.ext (by match a with | ⟨0, _⟩ => rfl | ⟨1, _⟩ => rfl)
  have er : ∀ k : Fin 128, ridx_main_v12 (ix2 p j) k = ix2 k j := fun k =>
    funext fun a => Fin.ext (by match a with | ⟨0, _⟩ => rfl | ⟨1, _⟩ => rfl)
  have eb : idx_main_v13 (idx_main_v14 (ix2 p j)) = ix1 j :=
    funext fun a => Fin.ext (by match a with | ⟨0, _⟩ => rfl)
  rw [val_main_v15_apply, val_main_v12_apply, val_main_v14_apply, val_main_v13_apply, eb]
  simp only [el, er, hidden2_eq]
  rfl

/-- Column 0 of the result is the first piece of the concatenation: the input's column 0. -/
theorem col0_eq (p : Fin 1048576) :
    val_main_v22 (F := Ideal) x0 x1 x2 x3 x4 x5 x6 (ix2 p (0 : Fin 2)) = x0 (ix2 p (0 : Fin 2)) := by
  unfold val_main_v22
  refine (concatenate_pair_apply_left (t := S1048576x2) (s₁ := S1048576x1) (s₂ := S1048576x1) (1 : Fin 2) _ _ concatenates_S1048576x1_S1048576x1_S1048576x2_d1
    (ix2 p (0 : Fin 2)) rfl (ix2 p (0 : Fin 1)) (fun b => by match b with | ⟨0, _⟩ => rfl | ⟨1, _⟩ => rfl)).trans ?_
  rw [val_main_v0_apply]
  exact congrArg x0 (funext fun a => Fin.ext (by match a with | ⟨0, _⟩ => rfl | ⟨1, _⟩ => rfl))

/-- Column 1 of the result is the second piece: the coupled coordinate of the row. -/
theorem col1_eq (p : Fin 1048576) :
    val_main_v22 (F := Ideal) x0 x1 x2 x3 x4 x5 x6 (ix2 p (1 : Fin 2))
      = coupled x1 x2 x3 x4 x5 x6 (x0 (ix2 p (0 : Fin 2))) (x0 (ix2 p (1 : Fin 2))) := by
  unfold val_main_v22
  refine (concatenate_pair_apply_right (t := S1048576x2) (s₁ := S1048576x1) (s₂ := S1048576x1) (1 : Fin 2) _ _ concatenates_S1048576x1_S1048576x1_S1048576x2_d1
    (ix2 p (1 : Fin 2)) rfl rfl (ix2 p (0 : Fin 1))
    (fun b hb => by match b with | ⟨0, _⟩ => rfl | ⟨1, _⟩ => exact absurd rfl hb) rfl).trans ?_
  have e1 : idx_main_v1 (ix2 p (0 : Fin 1)) = ix2 p (1 : Fin 2) :=
    funext fun a => Fin.ext (by match a with | ⟨0, _⟩ => rfl | ⟨1, _⟩ => rfl)
  have e16 : idx_main_v16 (ix2 p (0 : Fin 1)) = ix2 p (0 : Fin 2) :=
    funext fun a => Fin.ext (by match a with | ⟨0, _⟩ => rfl | ⟨1, _⟩ => rfl)
  have e18 : idx_main_v18 (ix2 p (0 : Fin 1)) = ix2 p (1 : Fin 2) :=
    funext fun a => Fin.ext (by match a with | ⟨0, _⟩ => rfl | ⟨1, _⟩ => rfl)
  rw [val_main_v21_apply, val_main_v20_apply, val_main_v19_apply, val_main_v17_apply, val_main_v1_apply,
    val_main_v16_apply, val_main_v18_apply, e1, e16, e18, scaleShift_eq, scaleShift_eq]
  rfl

/-- The reference's last stage is the layer of its arguments. -/
theorem result_eq :
    val_main_v22 (F := Ideal) x0 x1 x2 x3 x4 x5 x6 = layer x0 x1 x2 x3 x4 x5 x6 := by
  funext i
  obtain ⟨p, j, rfl⟩ : ∃ (p : Fin 1048576) (j : Fin 2), i = ix2 p j := ⟨i 0, i 1, eq_ix2 i⟩
  rw [layer_ix2]
  match j with
  | ⟨0, _⟩ => exact (col0_eq x0 x1 x2 x3 x4 x5 x6 p).trans (rowOut_zero x1 x2 x3 x4 x5 x6 _ _).symm
  | ⟨1, _⟩ => exact (col1_eq x0 x1 x2 x3 x4 x5 x6 p).trans (rowOut_one x1 x2 x3 x4 x5 x6 _ _).symm

end Cert.Coupling.Ref

end
-- ==== Proof.KernelRow.lean ====
/-
  The kernel's body, read at an index of its output block, is the coupling layer's row function of the block's row.

  The body is four stages, each a whole-block operation of the one before:
    layer1 : max (x[:, 0:1] ⊗ W1 + b1) 0        — the column x[:, 0] broadcast along the lanes times the row W1,
    layer2 : max (layer1 · W2 + b2) 0            — a matrix product into a zero accumulator (the change of float
                                                     format on both operands is the identity on extended reals),
    layer3 : layer2 · W3 + b3,
    couple : [x[:, 0:1], x[:, 1:2] · exp (tanh st[:, 0:1]) + st[:, 1:2]]  joined along axis 1.
  At row r each stage depends on the block only through x[r, 0] (and, at the end, x[r, 1]): a broadcast reads its
  operand at the unit coordinate, a slice shifts a column, a matrix product at (r, q) is the sum over k of the left
  operand at (r, k) times the right at (k, q), and the join reads its first piece at column 0, its second at column 1.
-/
import proofs.«126734_j33363305955650_1_alg».proof.Proof.Gen.KernelIdeal.Skeleton
import proofs.«126734_j33363305955650_1_alg».proof.Proof.CouplingSpec
import Idealize.ShloMosaic.Lib.ValueIdx
import Idealize.ShloMosaic.Lib.ValueLayout
import Idealize.ShloMosaic.Lib.Pipeline.Value
import Idealize.ShloMosaic.PureOps.Ideal.Laws

noncomputable section

namespace Cert.Coupling.Ker

open Cert.KernelIdeal Cert.KernelIdeal.Gen Idealize.ShloMosaic Idealize.ShloMosaic.ValueIdx

/-! ## A column broadcast along the lanes -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products as sums over the contracted axis -/

theorem lhs_w2_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_w2_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_w2_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_w2_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

theorem matmul_w2_apply (l : FVec Ideal S4096x128 .bf16) (w : FVec Ideal S128x128 .bf16) (r : Fin 4096) (q : Fin 128) :
    matmul dot_S4096x128_S128x128_S4096x128_1_0_0_1_n_n none l w (constant (F := Ideal) S4096x128 .f32 0x00000000#32) (ix2 r q)
      = ∑ k : Fin 128, l (ix2 r k) * w (ix2 k q) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r q) ((ValueIdx.contrEquiv1 dot_S4096x128_S128x128_S4096x128_1_0_0_1_n_n 128 rfl rfl).symm k) = ix2 r k := funext fun a => Fin.ext (by
    match a with
    | ⟨0, _⟩ => exact lhs_w2_0 _ _
    | ⟨1, _⟩ => exact (lhs_w2_1 _ _).trans hk)
  have er : dot_S4096x128_S128x128_S4096x128_1_0_0_1_n_n.rhsIdx (ix2 r q) ((ValueIdx.contrEquiv1 dot_S4096x128_S128x128_S4096x128_1_0_0_1_n_n 128 rfl rfl).symm k) = ix2 k q := funext fun a => Fin.ext (by
    match a with
    | ⟨0, _⟩ => exact (rhs_w2_0 _ _).trans hk
    | ⟨1, _⟩ => exact rhs_w2_1 _ _)
  rw [el, er]

theorem lhs_w3_0 (i : S4096x2.Idx) (q : dot_S4096x128_S128x2_S4096x2_1_0_0_1_n_n.contr.Idx) :
    (dot_S4096x128_S128x2_S4096x2_1_0_0_1_n_n.lhsIdx i q 0).val = (i 0).val := by
  unfold DotDims.lhsIdx
  rw [dif_neg (show ¬(0 : Fin S4096x128.rank) ∈ dot_S4096x128_S128x2_S4096x2_1_0_0_1_n_n.lhsBatch by decide), dif_pos (show (0 : Fin S4096x128.rank) ∈ dot_S4096x128_S128x2_S4096x2_1_0_0_1_n_n.lhsNonContracting by decide)]
  rfl
theorem lhs_w3_1 (i : S4096x2.Idx) (q : dot_S4096x128_S128x2_S4096x2_1_0_0_1_n_n.contr.Idx) :
    (dot_S4096x128_S128x2_S4096x2_1_0_0_1_n_n.lhsIdx i q 1).val = (q ⟨0, by decide⟩).val :=
  dot_S4096x128_S128x2_S4096x2_1_0_0_1_n_n.lhsIdx_val_of_single rfl i q
theorem rhs_w3_0 (i : S4096x2.Idx) (q : dot_S4096x128_S128x2_S4096x2_1_0_0_1_n_n.contr.Idx) :
    (dot_S4096x128_S128x2_S4096x2_1_0_0_1_n_n.rhsIdx i q 0).val = (q ⟨0, by decide⟩).val :=
  dot_S4096x128_S128x2_S4096x2_1_0_0_1_n_n.rhsIdx_val_of_single rfl i q
theorem rhs_w3_1 (i : S4096x2.Idx) (q : dot_S4096x128_S128x2_S4096x2_1_0_0_1_n_n.contr.Idx) :
    (dot_S4096x128_S128x2_S4096x2_1_0_0_1_n_n.rhsIdx i q 1).val = (i 1).val := by
  unfold DotDims.rhsIdx
  rw [dif_neg (show ¬(1 : Fin S128x2.rank) ∈ dot_S4096x128_S128x2_S4096x2_1_0_0_1_n_n.rhsBatch by decide), dif_pos (show (1 : Fin S128x2.rank) ∈ dot_S4096x128_S128x2_S4096x2_1_0_0_1_n_n.rhsNonContracting by decide)]
  rfl

theorem matmul_w3_apply (l : FVec Ideal S4096x128 .bf16) (w : FVec Ideal S128x2 .bf16) (r : Fin 4096) (q : Fin 2) :
    matmul dot_S4096x128_S128x2_S4096x2_1_0_0_1_n_n none l w (constant (F := Ideal) S4096x2 .f32 0x00000000#32) (ix2 r q)
      = ∑ k : Fin 128, l (ix2 r k) * w (ix2 k q) := by
  simp only [matmul]
  rw [Ideal.matmul_constant_zero_apply, ← Equiv.sum_comp (ValueIdx.contrEquiv1 dot_S4096x128_S128x2_S4096x2_1_0_0_1_n_n 128 rfl rfl).symm]
  refine Finset.sum_congr rfl fun k _ => ?_
  have hk := ValueIdx.contrEquiv1_symm_val dot_S4096x128_S128x2_S4096x2_1_0_0_1_n_n 128 rfl rfl k
  have el : dot_S4096x128_S128x2_S4096x2_1_0_0_1_n_n.lhsIdx (ix2 r q) ((ValueIdx.contrEquiv1 dot_S4096x128_S128x2_S4096x2_1_0_0_1_n_n 128 rfl rfl).symm k) = ix2 r k := funext fun a => Fin.ext (by
    match a with
    | ⟨0, _⟩ => exact lhs_w3_0 _ _
    | ⟨1, _⟩ => exact (lhs_w3_1 _ _).trans hk)
  have er : dot_S4096x128_S128x2_S4096x2_1_0_0_1_n_n.rhsIdx (ix2 r q) ((ValueIdx.contrEquiv1 dot_S4096x128_S128x2_S4096x2_1_0_0_1_n_n 128 rfl rfl).symm k) = ix2 k q := funext fun a => Fin.ext (by
    match a with
    | ⟨0, _⟩ => exact (rhs_w3_0 _ _).trans hk
    | ⟨1, _⟩ => exact rhs_w3_1 _ _)
  rw [el, er]

/-! ## The four stages -/

/-- The first rectified layer over the block. -/
def layer1 (v0 : FVec Ideal S4096x2 .f32) (v3 : FVec Ideal S1x128 .f32) (v4 : FVec Ideal S128 .f32) : FVec Ideal S4096x128 .f32 :=
  maximumf (addf (mulf (broadcastTo S4096x128 (extractStridedSlice S4096x1 ![0, 0] v0 slices_S4096x2_o0_0_S4096x1) broadcasts_S4096x1_S4096x128)
      (broadcastTo S4096x128 v3 broadcasts_S1x128_S4096x128))
    (broadcastTo S4096x128 (shapeCast S1x128 v4 shapeCasts_S128_S1x128) broadcasts_S1x128_S4096x128))
    (broadcast S4096x128 (Scalar.ofBits .f32 0x00000000#32))

theorem layer1_apply (v0 : FVec Ideal S4096x2 .f32) (v3 : FVec Ideal S1x128 .f32) (v4 : FVec Ideal S128 .f32) (r : Fin 4096) (h : Fin 128) :
    layer1 v0 v3 v4 (ix2 r h) = hidden1 v3 v4 (v0 (ix2 r (0 : Fin 2))) h := by
  unfold layer1 hidden1
  rw [maximumf_apply, addf_apply, mulf_apply, broadcast_apply, broadcastTo_a1_ab_apply, broadcastTo_1b_ab_apply,
    broadcastTo_1b_ab_apply, shapeCast_a_1a_apply, slice2_axis1_eq]
  rfl

/-- The second rectified layer over the block, from the first. -/
def layer2 (a : FVec Ideal S4096x128 .f32) (v13 : FVec Ideal S128x128 .f32) (v15 : FVec Ideal S128 .f32) : FVec Ideal S4096x128 .f32 :=
  maximumf (addf (matmul dot_S4096x128_S128x128_S4096x128_1_0_0_1_n_n none (truncf .bf16 a bitsLt_bf16_f32) (truncf .bf16 v13 bitsLt_bf16_f32) (constant S4096x128 .f32 0x00000000#32))
    (broadcastTo S4096x128 (shapeCast S1x128 v15 shapeCasts_S128_S1x128) broadcasts_S1x128_S4096x128))
    (broadcast S4096x128 (Scalar.ofBits .f32 0x00000000#32))

theorem layer2_apply (a : FVec Ideal S4096x128 .f32) (v13 : FVec Ideal S128x128 .f32) (v15 : FVec Ideal S128 .f32) (r : Fin 4096) (q : Fin 128) :
    layer2 a v13 v15 (ix2 r q) = max ((∑ k : Fin 128, a (ix2 r k) * v13 (ix2 k q)) + v15 (ix1 q)) floor0 := by
  unfold layer2
  rw [maximumf_apply, addf_apply, broadcast_apply, matmul_w2_apply, broadcastTo_1b_ab_apply, shapeCast_a_1a_apply]
  rfl

/-- The output layer over the block, from the second. -/
def layer3 (a : FVec Ideal S4096x128 .f32) (v23 : FVec Ideal S128x2 .f32) (v25 : FVec Ideal S2 .f32) : FVec Ideal S4096x2 .f32 :=
  addf (matmul dot_S4096x128_S128x2_S4096x2_1_0_0_1_n_n none (truncf .bf16 a bitsLt_bf16_f32) (truncf .bf16 v23 bitsLt_bf16_f32) (constant S4096x2 .f32 0x00000000#32))
    (broadcastTo S4096x2 (shapeCast S1x2 v25 shapeCasts_S2_S1x2) broadcasts_S1x2_S4096x2)

theorem layer3_apply (a : FVec Ideal S4096x128 .f32) (v23 : FVec Ideal S128x2 .f32) (v25 : FVec Ideal S2 .f32) (r : Fin 4096) (j : Fin 2) :
    layer3 a v23 v25 (ix2 r j) = (∑ k : Fin 128, a (ix2 r k) * v23 (ix2 k j)) + v25 (ix1 j) := by
  unfold layer3
  rw [addf_apply, matmul_w3_apply, broadcastTo_1b_ab_apply, shapeCast_a_1a_apply]
  rfl

/-- The coupling of the block's two columns by the output layer's two columns, joined along axis 1. -/
def couple (v0 : FVec Ideal S4096x2 .f32) (st : FVec Ideal S4096x2 .f32) : FVec Ideal S4096x2 .f32 :=
  concatenate S4096x2 1 [⟨S4096x1, extractStridedSlice S4096x1 ![0, 0] v0 slices_S4096x2_o0_0_S4096x1⟩,
    ⟨S4096x1, addf (mulf (extractStridedSlice S4096x1 ![0, 1] v0 slices_S4096x2_o0_1_S4096x1)
        (exp (tanh (extractStridedSlice S4096x1 ![0, 0] st slices_S4096x2_o0_0_S4096x1))))
      (extractStridedSlice S4096x1 ![0, 1] st slices_S4096x2_o0_1_S4096x1)⟩] concatenates_S4096x1_S4096x1_S4096x2_d1

theorem couple_zero (v0 st : FVec Ideal S4096x2 .f32) (r : Fin 4096) :
    couple v0 st (ix2 r (0 : Fin 2)) = v0 (ix2 r (0 : Fin 2)) := by
  unfold couple
  refine (concatenate_pair_apply_left (t := S4096x2) (s₁ := S4096x1) (s₂ := S4096x1) (1 : Fin 2) _ _ concatenates_S4096x1_S4096x1_S4096x2_d1
    (ix2 r (0 : Fin 2)) rfl (ix2 r (0 : Fin 1)) (fun b => by match b with | ⟨0, _⟩ => rfl | ⟨1, _⟩ => rfl)).trans ?_
  rw [slice2_axis1_eq]
  rfl

theorem couple_one (v0 st : FVec Ideal S4096x2 .f32) (r : Fin 4096) :
    couple v0 st (ix2 r (1 : Fin 2))
      = v0 (ix2 r (1 : Fin 2)) * Ideal.exp (Ideal.tanh (st (ix2 r (0 : Fin 2)))) + st (ix2 r (1 : Fin 2)) := by
  unfold couple
  refine (concatenate_pair_apply_right (t := S4096x2) (s₁ := S4096x1) (s₂ := S4096x1) (1 : Fin 2) _ _ concatenates_S4096x1_S4096x1_S4096x2_d1
    (ix2 r (1 : Fin 2)) rfl rfl (ix2 r (0 : Fin 1))
    (fun b hb => by match b with | ⟨0, _⟩ => rfl | ⟨1, _⟩ => exact absurd rfl hb) rfl).trans ?_
  rw [addf_apply, mulf_apply, slice2_axis1_eq, slice2_axis1_eq]
  show _ * FloatOps.exp (FloatOps.tanh (extractStridedSlice S4096x1 ![0, 0] st slices_S4096x2_o0_0_S4096x1 (ix2 r (0 : Fin 1)))) + _ = _
  rw [slice2_axis1_eq]
  rfl

/-! ## The payload is the four stages, and at an index the row function -/

/-- The body's stored value is the four stages composed: the printed operations, grouped. -/
theorem pay_eq (v0 : FVec Ideal S4096x2 .f32) (v3 : FVec Ideal S1x128 .f32) (v4 : FVec Ideal S128 .f32) (v13 : FVec Ideal S128x128 .f32)
    (v15 : FVec Ideal S128 .f32) (v23 : FVec Ideal S128x2 .f32) (v25 : FVec Ideal S2 .f32) :
    k0_pay1 (F := Ideal) v0 v3 v4 v13 v15 v23 v25 = couple v0 (layer3 (layer2 (layer1 v0 v3 v4) v13 v15) v23 v25) := rfl

/-- The output layer at row `r` of the block is the row function's, at the row's passing coordinate. -/
theorem layer3_row (v0 : FVec Ideal S4096x2 .f32) (v3 : FVec Ideal S1x128 .f32) (v4 : FVec Ideal S128 .f32) (v13 : FVec Ideal S128x128 .f32)
    (v15 : FVec Ideal S128 .f32) (v23 : FVec Ideal S128x2 .f32) (v25 : FVec Ideal S2 .f32) (r : Fin 4096) (j : Fin 2) :
    layer3 (layer2 (layer1 v0 v3 v4) v13 v15) v23 v25 (ix2 r j) = scaleShift v3 v4 v13 v15 v23 v25 (v0 (ix2 r (0 : Fin 2))) j := by
  rw [layer3_apply]
  simp only [layer2_apply, layer1_apply]
  rfl

/-- THE PAYLOAD AT AN INDEX: row `r`, column `j` of what the body stores is the layer's row function of the block's row `r`. -/
theorem pay_row (v0 : FVec Ideal S4096x2 .f32) (v3 : FVec Ideal S1x128 .f32) (v4 : FVec Ideal S128 .f32) (v13 : FVec Ideal S128x128 .f32)
    (v15 : FVec Ideal S128 .f32) (v23 : FVec Ideal S128x2 .f32) (v25 : FVec Ideal S2 .f32) (r : Fin 4096) (j : Fin 2) :
    k0_pay1 (F := Ideal) v0 v3 v4 v13 v15 v23 v25 (ix2 r j)
      = rowOut v3 v4 v13 v15 v23 v25 (v0 (ix2 r (0 : Fin 2))) (v0 (ix2 r (1 : Fin 2))) j := by
  rw [pay_eq]
  match j with
  | ⟨0, _⟩ => exact (couple_zero _ _ r).trans (rowOut_zero v3 v4 v13 v15 v23 v25 _ _).symm
  | ⟨1, _⟩ =>
    refine (couple_one _ _ r).trans ?_
    rw [layer3_row, layer3_row]
    exact (rowOut_one v3 v4 v13 v15 v23 v25 _ _).symm

end Cert.Coupling.Ker

end
-- ==== Proof.KernelArray.lean ====
/-
  From blocks to the array: after the run the result array is the coupling layer of the argument arrays.

  The grid has 256 points. Point t stages rows 4096·t … 4096·t + 4095 of the input (both columns) and the six
  parameter arrays whole, and writes back rows 4096·t … 4096·t + 4095 of the result. The body's stored value at
  (r, j) is the layer's row function of the block's row r, which is row 4096·t + r of the input; so what point t
  writes back is its block of ONE whole-array function, the layer of the arguments. Every row of the result lies in
  the block of the point ⌊row / 4096⌋, so the blocks cover the array and the array ends at the layer.
-/
import proofs.«126734_j33363305955650_1_alg».proof.Proof.Gen.KernelIdeal.Value
import proofs.«126734_j33363305955650_1_alg».proof.Proof.KernelRow

noncomputable section

namespace Cert.Coupling.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The arrays and the blocks, by their literal types -/

abbrev xarr (c : Dev nD) : FVec Ideal S1048576x2 .f32 := V m c main_arg0
abbrev w1arr (c : Dev nD) : FVec Ideal S1x128 .f32 := V m c main_arg1
abbrev b1arr (c : Dev nD) : FVec Ideal S128 .f32 := V m c main_arg2
abbrev w2arr (c : Dev nD) : FVec Ideal S128x128 .f32 := V m c main_arg3
abbrev b2arr (c : Dev nD) : FVec Ideal S128 .f32 := V m c main_arg4
abbrev w3arr (c : Dev nD) : FVec Ideal S128x2 .f32 := V m c main_arg5
abbrev b3arr (c : Dev nD) : FVec Ideal S2 .f32 := V m c main_arg6

abbrev xblk (c : Dev nD) (t : Fin cfg0.N) : FVec Ideal S4096x2 .f32 := iblk m c 0 t
abbrev w1blk (c : Dev nD) (t : Fin cfg0.N) : FVec Ideal S1x128 .f32 := iblk m c 1 t
abbrev b1blk (c : Dev nD) (t : Fin cfg0.N) : FVec Ideal S128 .f32 := iblk m c 2 t
abbrev w2blk (c : Dev nD) (t : Fin cfg0.N) : FVec Ideal S128x128 .f32 := iblk m c 3 t
abbrev b2blk (c : Dev nD) (t : Fin cfg0.N) : FVec Ideal S128 .f32 := iblk m c 4 t
abbrev w3blk (c : Dev nD) (t : Fin cfg0.N) : FVec Ideal S128x2 .f32 := iblk m c 5 t
abbrev b3blk (c : Dev nD) (t : Fin cfg0.N) : FVec Ideal S2 .f32 := iblk m c 6 t

/-- The result the array ends at: the layer of the arguments as the region finds them. -/
abbrev result (c : Dev nD) : FVec Ideal S1048576x2 .f32 :=
  layer (xarr m c) (w1arr m c) (b1arr m c) (w2arr m c) (b2arr m c) (w3arr m c) (b3arr m c)

/-! ## The index maps over the grid, decided once -/

/-- The row windows (input 0, output 7) sit at block (t, 0); the parameter windows at block 0 on every axis. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-! ## Each staged block as entries of its array -/

/-- Row `r` of the input block at point `t` is row `4096·t + r` of the input. -/
theorem xblk_apply (c : Dev nD) (t : Fin cfg0.N) (r : Fin 4096) (j : Fin 2) (k : Fin 1048576) (hk : k.val = t.val * 4096 + r.val) :
    xblk m c t (ix2 r j) = xarr m c (ix2 k j) := by
  obtain ⟨e00, e01, -⟩ := idx_facts t
  unfold xblk iblk
  rw [View.read_apply]
  show V m c main_arg0 _ = V m c main_arg0 _
  congr 1
  funext a
  apply Fin.ext
  match a with
  | ⟨0, _⟩ => show win0_0.index t (0 : Fin 2) * 4096 + 1 * r.val = k.val; rw [e00, hk]; omega
  | ⟨1, _⟩ => show win0_0.index t (1 : Fin 2) * 2 + 1 * j.val = j.val; rw [e01]; omega

theorem w1blk_eq (c : Dev nD) (t : Fin cfg0.N) : w1blk m c t = w1arr m c := by
  obtain ⟨-, -, -, -, e0, e1, -⟩ := idx_facts t
  funext y
  unfold w1blk iblk
  rw [View.read_apply]
  show V m c main_arg1 _ = V m c main_arg1 y
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 128 + 1 * (y 1).val = (y 1).val; rw [e1]; omega

theorem b1blk_eq (c : Dev nD) (t : Fin cfg0.N) : b1blk m c t = b1arr m c := by
  obtain ⟨-, -, -, -, -, -, e0, -⟩ := idx_facts t
  funext y
  unfold b1blk iblk
  rw [View.read_apply]
  show V m c main_arg2 _ = V m c main_arg2 y
  congr 1
  funext a
  apply Fin.ext
  match a with
  | ⟨0, _⟩ => show win0_2.index t (0 : Fin 1) * 128 + 1 * (y 0).val = (y 0).val; rw [e0]; omega

theorem w2blk_eq (c : Dev nD) (t : Fin cfg0.N) : w2blk m c t = w2arr m c := by
  obtain ⟨-, -, -, -, -, -, -, e0, e1, -⟩ := idx_facts t
  funext y
  unfold w2blk iblk
  rw [View.read_apply]
  show V m c main_arg3 _ = V m c main_arg3 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem b2blk_eq (c : Dev nD) (t : Fin cfg0.N) : b2blk m c t = b2arr m c := by
  obtain ⟨-, -, -, -, -, -, -, -, -, e0, -⟩ := idx_facts t
  funext y
  unfold b2blk iblk
  rw [View.read_apply]
  show V m c main_arg4 _ = V m c main_arg4 y
  congr 1
  funext a
  apply Fin.ext
  match a with
  | ⟨0, _⟩ => show win0_4.index t (0 : Fin 1) * 128 + 1 * (y 0).val = (y 0).val; rw [e0]; omega

theorem w3blk_eq (c : Dev nD) (t : Fin cfg0.N) : w3blk m c t = w3arr m c := by
  obtain ⟨-, -, -, -, -, -, -, -, -, -, e0, e1, -⟩ := idx_facts t
  funext y
  unfold w3blk iblk
  rw [View.read_apply]
  show V m c main_arg5 _ = V m c main_arg5 y
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 2 + 1 * (y 1).val = (y 1).val; rw [e1]; omega

theorem b3blk_eq (c : Dev nD) (t : Fin cfg0.N) : b3blk m c t = b3arr m c := by
  obtain ⟨-, -, -, -, -, -, -, -, -, -, -, -, e0⟩ := idx_facts t
  funext y
  unfold b3blk iblk
  rw [View.read_apply]
  show V m c main_arg6 _ = V m c main_arg6 y
  congr 1
  funext a
  apply Fin.ext
  match a with
  | ⟨0, _⟩ => show win0_6.index t (0 : Fin 1) * 2 + 1 * (y 0).val = (y 0).val; rw [e0]; omega

/-! ## What a point writes back -/

/-- The body's stored value at point `t`, at `(r, j)`, is the result at `(4096·t + r, j)`. -/
theorem stored_apply (c : Dev nD) (t : Fin cfg0.N) (r : Fin 4096) (j : Fin 2) (k : Fin 1048576) (hk : k.val = t.val * 4096 + r.val) :
    k0_pay1 (F := Ideal) (xblk m c t) (w1blk m c t) (b1blk m c t) (w2blk m c t) (b2blk m c t) (w3blk m c t) (b3blk m c t) (ix2 r j)
      = result m c (ix2 k j) := by
  rw [Ker.pay_row, w1blk_eq, b1blk_eq, w2blk_eq, b2blk_eq, w3blk_eq, b3blk_eq,
    xblk_apply m c t r (0 : Fin 2) k hk, xblk_apply m c t r (1 : Fin 2) k hk]
  rfl

/-- The same at any index `y` of the block and any index `i` of the array with `i = (4096·t + y₀, y₁)`. -/
theorem stored_at (c : Dev nD) (t : Fin cfg0.N) (y : S4096x2.Idx) (i : S1048576x2.Idx)
    (h0 : (i 0).val = t.val * 4096 + (y 0).val) (h1 : (i 1).val = (y 1).val) :
    k0_pay1 (F := Ideal) (xblk m c t) (w1blk m c t) (b1blk m c t) (w2blk m c t) (b2blk m c t) (w3blk m c t) (b3blk m c t) y
      = result m c i := by
  obtain ⟨r, j, rfl⟩ : ∃ (r : Fin 4096) (j : Fin 2), y = ix2 r j := ⟨y 0, y 1, eq_ix2 y⟩
  obtain ⟨k, j', rfl⟩ : ∃ (k : Fin 1048576) (j' : Fin 2), i = ix2 k j' := ⟨i 0, i 1, eq_ix2 i⟩
  obtain rfl : j' = j := Fin.ext h1
  exact stored_apply m c t r j' k h0

/-- WHAT POINT `t` WRITES BACK is block `t` of the result. -/
theorem flushed_eq (c : Dev nD) (t : Fin cfg0.N) :
    (dats m 0 c).flushed 7 t = ((cfg0.win 7).blk t).view.read (Elt Ideal) (result m c) := by
  obtain ⟨-, -, e70, e71, -⟩ := idx_facts t
  rw [Value.flushed7]
  unfold out0_7
  rw [View.canon_unit_zero hz2]
  simp only [View.ld_unit_zero (S := S4096x2) hz2, View.ld_unit_zero (S := S1x128) hz2, View.ld_unit_zero (S := S128) hz1,
    View.ld_unit_zero (S := S128x128) hz2, View.ld_unit_zero (S := S128x2) hz2, View.ld_unit_zero (S := S2) hz1]
  funext y
  show k0_pay1 (F := Ideal) (xblk m c t) (w1blk m c t) (b1blk m c t) (w2blk m c t) (b2blk m c t) (w3blk m c t) (b3blk m c t) y
      = result m c (((cfg0.win 7).blk t).view.emb y)
  refine stored_at m c t y (((cfg0.win 7).blk t).view.emb y) ?_ ?_
  · show win0_7.index t (0 : Fin 2) * 4096 + 1 * (y 0).val = t.val * 4096 + (y 0).val
    rw [e70]; omega
  · show win0_7.index t (1 : Fin 2) * 2 + 1 * (y 1).val = (y 1).val
    rw [e71]; omega

/-! ## The cover, and the array after the run -/

/-- An index of the result array is in point `t`'s block iff each coordinate is in the block's range on its axis. -/
theorem mem_blk (t : Fin cfg0.N) (i : S1048576x2.Idx) :
    i ∈ ((cfg0.win 7).blk t).view.set ↔ ∀ a : Fin 2, win0_7.index t a * S4096x2.size a ≤ (i a).val ∧ (i a).val < win0_7.index t a * S4096x2.size a + S4096x2.size a := by
  show i ∈ ((View.whole main_v0).slice (win0_7.rect t)).set ↔ _
  rw [View.set_slice_whole, Rect.mem_set_unit]
  exact Iff.rfl

/-- Row `p` of the result lies in the block of the point `⌊p / 4096⌋`. -/
theorem covered (i : S1048576x2.Idx) :
    ∃ t : Fin cfg0.N, (cfg0.win 7).flush t = true ∧ i ∈ ((cfg0.win 7).blk t).view.set := by
  have hN : cfg0.N = 256 := N_0
  have hi0 : (i 0).val < 1048576 := (i 0).isLt
  have hi1 : (i 1).val < 2 := (i 1).isLt
  have hlt : (i 0).val / 4096 < cfg0.N := by rw [hN]; omega
  refine ⟨⟨(i 0).val / 4096, hlt⟩, flush0_7 _, ?_⟩
  obtain ⟨-, -, e70, e71, -⟩ := idx_facts ⟨(i 0).val / 4096, hlt⟩
  rw [mem_blk]
  intro a
  match a with
  | ⟨0, _⟩ =>
    show win0_7.index ⟨(i 0).val / 4096, hlt⟩ (0 : Fin 2) * 4096 ≤ (i 0).val ∧ (i 0).val < win0_7.index ⟨(i 0).val / 4096, hlt⟩ (0 : Fin 2) * 4096 + 4096
    rw [e70]
    show (i 0).val / 4096 * 4096 ≤ (i 0).val ∧ (i 0).val < (i 0).val / 4096 * 4096 + 4096
    omega
  | ⟨1, _⟩ =>
    show win0_7.index ⟨(i 0).val / 4096, hlt⟩ (1 : Fin 2) * 2 ≤ (i 1).val ∧ (i 1).val < win0_7.index ⟨(i 0).val / 4096, hlt⟩ (1 : Fin 2) * 2 + 2
    rw [e71]
    omega

/-- THE ARRAY after the run is the layer of the arguments as the region finds them. -/
theorem final (c : Dev nD) : (dats m 0 c).arrAt 7 cfg0.N = result m c :=
  (dats m 0 c).arrAt_eq_of_cover 7 (result m c) (fun t _ => flushed_eq m c t) covered

/-- The run, read: the result array at the layer of the launch contents of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.Coupling.Arr

end
-- ==== Proof.lean ====
/-
  The certificate of the affine coupling kernel against its jnp reference, over the extended reals.

  Both programs compute, row by row of x : f32[1048576, 2], the pair (x₀, x₁ · exp (tanh s) + t) where (s, t) is a
  three-layer perceptron of x₀ alone (1 → 128 → 128 → 2, rectified between the layers). The kernel tiles the rows in
  256 blocks of 4096, multiplies x₀ into the first weight row by a broadcast instead of a one-term matrix product,
  and narrows the operands of its two matrix products to bf16; at the ideal values the narrowing is the identity, a
  one-term contraction is its term, and a matrix product into a zero accumulator is the host's contraction, so the
  two results are the same expression of the arguments index by index (Proof/CouplingSpec.lean states it; no law of
  arithmetic and no finiteness is used).
    Proof/RefIsLayer.lean   the reference's run ends at the layer of its arguments;
    Proof/KernelRow.lean    the kernel body's stored value at (r, j) is the layer's row function of the block's row r;
    Proof/KernelArray.lean  point t writes back block t of the layer, the blocks cover the array, the run ends at it.
  The three frames are the generated ones (the reference's is its run with the result dropped); the idealization
  rewrote nothing, so `preserves` is `True`.
-/
import proofs.«126734_j33363305955650_1_alg».proof.Defs
import proofs.«126734_j33363305955650_1_alg».proof.Proof.Gen.Kernel
import proofs.«126734_j33363305955650_1_alg».proof.Proof.Gen.Kernel.Skeleton
import proofs.«126734_j33363305955650_1_alg».proof.Proof.Gen.Kernel.Launch
import proofs.«126734_j33363305955650_1_alg».proof.Proof.Gen.Kernel.Points
import proofs.«126734_j33363305955650_1_alg».proof.Proof.Gen.Kernel.Frame
import proofs.«126734_j33363305955650_1_alg».proof.Proof.Gen.KernelIdeal
import proofs.«126734_j33363305955650_1_alg».proof.Proof.Gen.KernelIdeal.Skeleton
import proofs.«126734_j33363305955650_1_alg».proof.Proof.Gen.KernelIdeal.Launch
import proofs.«126734_j33363305955650_1_alg».proof.Proof.Gen.KernelIdeal.Points
import proofs.«126734_j33363305955650_1_alg».proof.Proof.Gen.KernelIdeal.Frame
import proofs.«126734_j33363305955650_1_alg».proof.Proof.Gen.ReferenceIdeal
import proofs.«126734_j33363305955650_1_alg».proof.Proof.Gen.Pre_finite_inputs
import proofs.«126734_j33363305955650_1_alg».proof.Proof.Gen.KernelIdeal.Value
import proofs.«126734_j33363305955650_1_alg».proof.Proof.Gen.ReferenceIdeal.Run
import proofs.«126734_j33363305955650_1_alg».proof.Proof.Gen.ReferenceIdeal.Read
import proofs.«126734_j33363305955650_1_alg».proof.Proof.RefIsLayer
import proofs.«126734_j33363305955650_1_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the coupling layer of the (agreeing) arguments. -/
theorem algebraic : Cert.algebraic_KernelIdeal_ReferenceIdeal := by
  intro m ρ m' ρ' _ hagree
  refine ⟨fun c => Cert.Coupling.Arr.result m c, Cert.Coupling.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Coupling.Ref.result_eq,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
